-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x2048 : Shape := ⟨2, ![1024, 2048]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x2048 : S_.BroadcastsInDim S1024x2048 (![] : Fin 0 → Fin S1024x2048.rank)
  reducesTo_S1024x2048_S_d0_1 : S1024x2048.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg7 : FVec F S1024x2048 .f32) (main_arg8 : FVec F S1024 .f32) (main_arg9 : FVec F S1024x2048 .f32) (main_arg10 : FVec F S1024 .f32) (main_v33 : IVec S_ 1) : IVec S_ 1 :=
  let main_v34 : FVec F S1024x2048 .f32 := Host.absf main_arg7
  let main_cst_12 : FVec F S_ .f32 := constant S_ .f32 0x7F800000#32
  let main_v35 : FVec F S1024x2048 .f32 := broadcastInDim S1024x2048 ![] bcast_S_S1024x2048 main_cst_12
  let main_v36 : IVec S1024x2048 1 := cmpf .olt main_v34 main_v35
  let main_c_13 : IVec S_ 1 := constantI S_ 1 1#1
  let main_v37 : IVec S_ 1 := (fun x v => Host.reduce IntOp.andi x v reducesTo_S1024x2048_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x2048 .f32 := Host.absf main_arg9
  let main_cst_16 : FVec F S_ .f32 := constant S_ .f32 0x7F800000#32
  let main_v45 : FVec F S1024x2048 .f32 := broadcastInDim S1024x2048 ![] bcast_S_S1024x2048 main_cst_16
  let main_v46 : IVec S1024x2048 1 := cmpf .olt main_v44 main_v45
  let main_c_17 : IVec S_ 1 := constantI S_ 1 1#1
  let main_v47 : IVec S_ 1 := (fun x v => Host.reduce IntOp.andi x v reducesTo_S1024x2048_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg4 : FVec F S1024 .f32) (main_arg5 : FVec F S1024x2048 .f32) (main_arg6 : FVec F S1024 .f32) (main_arg7 : FVec F S1024x2048 .f32) (main_arg8 : FVec F S1024 .f32) (main_arg9 : FVec F S1024x2048 .f32) (main_arg10 : FVec F S1024 .f32) (main_v13 : IVec S_ 1) (main_v16 : IVec S1024x2048 1) : IVec S_ 1 :=
  let main_c_5 : IVec S_ 1 := constantI S_ 1 1#1
  let main_v17 : IVec S_ 1 := (fun x v => Host.reduce IntOp.andi x v reducesTo_S1024x2048_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x2048 .f32 := Host.absf main_arg5
  let main_cst_8 : FVec F S_ .f32 := constant S_ .f32 0x7F800000#32
  let main_v25 : FVec F S1024x2048 .f32 := broadcastInDim S1024x2048 ![] bcast_S_S1024x2048 main_cst_8
  let main_v26 : IVec S1024x2048 1 := cmpf .olt main_v24 main_v25
  let main_c_9 : IVec S_ 1 := constantI S_ 1 1#1
  let main_v27 : IVec S_ 1 := (fun x v => Host.reduce IntOp.andi x v reducesTo_S1024x2048_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S8192x1024 .f32) (main_arg1 : FVec F S8192x1024 .f32) (main_arg2 : FVec F S8192x1024 .f32) (main_arg3 : FVec F S1024x2048 .f32) (main_arg4 : FVec F S1024 .f32) (main_arg5 : FVec F S1024x2048 .f32) (main_arg6 : FVec F S1024 .f32) (main_arg7 : FVec F S1024x2048 .f32) (main_arg8 : FVec F S1024 .f32) (main_arg9 : FVec F S1024x2048 .f32) (main_arg10 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S1024x2048 .f32 := Host.absf main_arg3
  let main_cst_4 : FVec F S_ .f32 := constant S_ .f32 0x7F800000#32
  let main_v15 : FVec F S1024x2048 .f32 := broadcastInDim S1024x2048 ![] bcast_S_S1024x2048 main_cst_4
  let main_v16 : IVec S1024x2048 1 := cmpf .olt main_v14 main_v15
  fn_part1 (F := F) main_arg4 main_arg5 main_arg6 main_arg7 main_arg8 main_arg9 main_arg10 main_v13 main_v16
-- ==== Kernel.lean ====
abbrev S8192x1024 : Shape := ⟨2, ![8192, 1024]⟩
abbrev S1024x2048 : Shape := ⟨2, ![1024, 2048]⟩
abbrev S1024 : Shape := ⟨1, ![1024]⟩
abbrev S4096x2048 : Shape := ⟨2, ![4096, 2048]⟩
abbrev S4096 : Shape := ⟨1, ![4096]⟩
abbrev S4096x1024 : Shape := ⟨2, ![4096, 1024]⟩
abbrev S1024x4096 : Shape := ⟨2, ![1024, 4096]⟩
abbrev S1x4096 : Shape := ⟨2, ![1, 4096]⟩
abbrev S256x1024 : Shape := ⟨2, ![256, 1024]⟩
abbrev S256x4096 : Shape := ⟨2, ![256, 4096]⟩

abbrev nBuf : Space → Nat
  | .hbm => 22
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024x2048, .f32⟩
  | .hbm, ⟨4, _⟩ => ⟨S1024, .f32⟩
  | .hbm, ⟨5, _⟩ => ⟨S1024x2048, .f32⟩
  | .hbm, ⟨6, _⟩ => ⟨S1024, .f32⟩
  | .hbm, ⟨7, _⟩ => ⟨S1024x2048, .f32⟩
  | .hbm, ⟨8, _⟩ => ⟨S1024, .f32⟩
  | .hbm, ⟨9, _⟩ => ⟨S1024x2048, .f32⟩
  | .hbm, ⟨10, _⟩ => ⟨S1024, .f32⟩
  | .hbm, ⟨11, _⟩ => ⟨S4096x2048, .f32⟩
  | .hbm, ⟨12, _⟩ => ⟨S4096, .f32⟩
  | .hbm, ⟨13, _⟩ => ⟨S4096x1024, .f32⟩
  | .hbm, ⟨14, _⟩ => ⟨S1024x4096, .f32⟩
  | .hbm, ⟨15, _⟩ => ⟨S1024x4096, .bf16⟩
  | .hbm, ⟨16, _⟩ => ⟨S4096x1024, .f32⟩
  | .hbm, ⟨17, _⟩ => ⟨S1024x4096, .f32⟩
  | .hbm, ⟨18, _⟩ => ⟨S1024x4096, .bf16⟩
  | .hbm, ⟨19, _⟩ => ⟨S1x4096, .f32⟩
  | .hbm, ⟨20, _⟩ => ⟨S8192x1024, .f32⟩
  | .hbm, ⟨21, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1024x4096, .bf16⟩
  | .local _ .vmem, ⟨7, _⟩ => ⟨S1024x4096, .bf16⟩
  | .local _ .vmem, ⟨8, _⟩ => ⟨S1x4096, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9_0 : Ref sig .tc := ⟨.hbm, 20, rfl⟩
abbrev main_v9_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  concatenates_S1024x2048_S1024x2048_S1024x2048_S1024x2048_S4096x2048_d0 : Shape.Concatenates [S1024x2048, S1024x2048, S1024x2048, S1024x2048] S4096x2048 0
  concatenates_S1024_S1024_S1024_S1024_S4096_d0 : Shape.Concatenates [S1024, S1024, S1024, S1024] S4096 0
  slices_S4096x2048_S4096x1024_0_0 : S4096x2048.Slices ![0, 0] S4096x1024
  transposes_S4096x1024_S1024x4096_1_0 : S4096x1024.Transposes [1, 0] S1024x4096
  bitsLt_bf16_f32 : FTy.bits .bf16 < FTy.bits .f32
  slices_S4096x2048_S4096x1024_0_1024 : S4096x2048.Slices ![0, 1024] S4096x1024
  shapeCasts_S4096_S1x4096 : S4096.ShapeCasts S1x4096
  inb_S256x1024_S256x1024_0_0 : ∀ a, (![0, 0] : Fin 2 → Nat) a + S256x1024.size a ≤ S256x1024.size a
  h_S256x1024 : 0 < S256x1024.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  dot_S256x1024_S1024x4096_S256x4096_1_0_0_1_n_n_wf : DotDims.WF S256x1024 S1024x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S8192x1024.size a
  hwx0_1 : ∀ i : grid0.Coords, EltTy.bits .f32 = 32 ∨ (Rect.block (s := S8192x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S8192x1024.size a
  hwx0_2 : ∀ i : grid0.Coords, EltTy.bits .f32 = 32 ∨ (Rect.block (s := S8192x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S1024x4096.size a
  hwx0_3 : ∀ i : grid0.Coords, EltTy.bits .bf16 = 32 ∨ (Rect.block (s := S1024x4096) S1024x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x4096.size a ≤ S1024x4096.size a
  hwx0_4 : ∀ i : grid0.Coords, EltTy.bits .bf16 = 32 ∨ (Rect.block (s := S1024x4096) S1024x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S8192x1024.size a
  hwx0_6 : ∀ i : grid0.Coords, EltTy.bits .f32 = 32 ∨ (Rect.block (s := S8192x1024) S256x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S8192x1024.size a
  hwx0_7 : ∀ i : grid0.Coords, EltTy.bits .f32 = 32 ∨ (Rect.block (s := S8192x1024) S256x1024.size (cc0_transform_7 i) (hinb0_7 i)).WholeWords (EltTy.packing .f32)

variable [Facts₀]

def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1024x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9_0) S256x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v9_1) S256x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S1024x2048 : Shape := ⟨2, ![1024, 2048]⟩
abbrev S1024 : Shape := ⟨1, ![1024]⟩
abbrev S8192x2048 : Shape := ⟨2, ![8192, 2048]⟩
abbrev S4096x2048 : Shape := ⟨2, ![4096, 2048]⟩
abbrev S4096 : Shape := ⟨1, ![4096]⟩
abbrev S2048x4096 : Shape := ⟨2, ![2048, 4096]⟩
abbrev S8192x4096 : Shape := ⟨2, ![8192, 4096]⟩
abbrev S1x4096 : Shape := ⟨2, ![1, 4096]⟩
abbrev S_ : Shape := ⟨0, ![]⟩

abbrev nBuf : Space → Nat
  | .hbm => 53
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024x2048, .f32⟩
  | .hbm, ⟨4, _⟩ => ⟨S1024, .f32⟩
  | .hbm, ⟨5, _⟩ => ⟨S1024x2048, .f32⟩
  | .hbm, ⟨6, _⟩ => ⟨S1024, .f32⟩
  | .hbm, ⟨7, _⟩ => ⟨S1024x2048, .f32⟩
  | .hbm, ⟨8, _⟩ => ⟨S1024, .f32⟩
  | .hbm, ⟨9, _⟩ => ⟨S1024x2048, .f32⟩
  | .hbm, ⟨10, _⟩ => ⟨S1024, .f32⟩
  | .hbm, ⟨11, _⟩ => ⟨S8192x2048, .f32⟩
  | .hbm, ⟨12, _⟩ => ⟨S4096x2048, .f32⟩
  | .hbm, ⟨13, _⟩ => ⟨S4096, .f32⟩
  | .hbm, ⟨14, _⟩ => ⟨S2048x4096, .f32⟩
  | .hbm, ⟨15, _⟩ => ⟨S8192x4096, .f32⟩
  | .hbm, ⟨16, _⟩ => ⟨S1x4096, .f32⟩
  | .hbm, ⟨17, _⟩ => ⟨S8192x4096, .f32⟩
  | .hbm, ⟨18, _⟩ => ⟨S8192x4096, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_cst_0 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_1 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_3 : Ref sig .tc := ⟨.hbm, 45, rfl⟩
abbrev main_v30 : Ref sig .tc := ⟨.hbm, 46, rfl⟩
abbrev main_v31 : Ref sig .tc := ⟨.hbm, 47, rfl⟩
abbrev main_cst_4 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩

abbrev nD : Nat := 1
abbrev τ : Topo := Topo.v7x

variable {F : FTy → Type} [FloatOps F]

class Facts₀ : Prop where
  concatenates_S8192x1024_S8192x1024_S8192x2048_d1 : Shape.Concatenates [S8192x1024, S8192x1024] S8192x2048 1
  concatenates_S1024x2048_S1024x2048_S1024x2048_S1024x2048_S4096x2048_d0 : Shape.Concatenates [S1024x2048, S1024x2048, S1024x2048, S1024x2048] S4096x2048 0
  concatenates_S1024_S1024_S1024_S1024_S4096_d0 : Shape.Concatenates [S1024, S1024, S1024, S1024] S4096 0
  transposes_S4096x2048_S2048x4096_1_0 : S4096x2048.Transposes [1, 0] S2048x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  slices_S8192x4096_S8192x1024_0_0 : S8192x4096.Slices ![0, 0] S8192x1024
  slices_S8192x4096_S8192x1024_0_1024 : S8192x4096.Slices ![0, 1024] S8192x1024
  slices_S8192x4096_S8192x1024_0_2048 : S8192x4096.Slices ![0, 2048] S8192x1024
  slices_S8192x4096_S8192x1024_0_3072 : S8192x4096.Slices ![0, 3072] S8192x1024
  bcast_S_S8192x1024 : S_.BroadcastsInDim S8192x1024 (![] : Fin 0 → Fin S8192x1024.rank)
  dot_S8192x2048_S2048x4096_S8192x4096_1_0_0_1_n_n_wf : DotDims.WF S8192x2048 S2048x4096 S8192x4096 [1] [0] [0] [1] [] []

variable [Facts₀]

def dot_S8192x2048_S2048x4096_S8192x4096_1_0_0_1_n_n : DotDims S8192x2048 S2048x4096 S8192x4096 where
  lhsContracting := [1]
  rhsContracting := [0]
  lhsNonContracting := [0]
  rhsNonContracting := [1]
  lhsBatch := []
  rhsBatch := []
  wf := dot_S8192x2048_S2048x4096_S8192x4096_1_0_0_1_n_n_wf

class Facts : Prop extends Facts₀ where

variable [Facts]
-- ==== Proof.KernelRun.lean ====
/-
  The run of the program: its host operations, then its one pallas_call over a grid of 32 row blocks.

  Entry values: `V` is what each buffer holds when the region is entered, the fold of the nine host operations
  (the two four-way concatenations, the two slices, transposes and conversions of the stacked weights, the bias
  reshaped to one row) over the launch memory; no host operation writes an argument array.

  Body: at a grid point the body loads its six input blocks (the three activation blocks of 256 rows, the two
  resident weight matrices, the bias row), and stores the new hidden state and the new cell state whole into the two
  output blocks; each output block after the body is therefore the payload of the six input blocks. An input block is
  found in its staging buffer at every point, whether it was fetched there (the activations) or once at the first
  point (the weights and the bias, whose block index never moves).

  Launch: the library's frame run for one pipeline with exact proof data; its post names every output array after
  the run and says every other buffer, the arguments among them, is as the region found it.
-/
import proofs.«118925_j77919296684536_1_alg».proof.Proof.Gen.Kernel.Launch
import proofs.«118925_j77919296684536_1_alg».proof.Proof.Gen.Kernel.Skeleton
import proofs.«118925_j77919296684536_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the region -/

/-- Core `c`'s buffers when the region is entered: the launch memory after the nine host operations. -/
abbrev V (c : Dev nD) (b : Ref sig .tc) : Buf (Elt F) ((c : Thread nD τ).loc b) :=
  StableHlo.after (List.flatten [hostOps0]) (fun b => m (c, b)) b

/-- No host operation allocates a buffer. -/
theorem hostOps0_fresh : (hostOps0 : List (HloOp τ sig (Elt F))).Forall fun op => op.fresh = ∅ := by
  simp only [List.Forall]; repeat' constructor

/-- The program is its host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host operation before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point, fetched there or not, for any proof
    data whose array is the entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a frame run the argument arrays end as launched: a staged activation array by the library's reading of an
    input window's array after the run, a weight or bias array because no window stages it; each is then its
    launch contents because no host operation writes it. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩) h

/-! ## The body's accesses -/

/-- The whole of an activation block. -/
abbrev rAct : Rect S256x1024 := Rect.unit (s := S256x1024) ![0, 0] S256x1024.size inb_S256x1024_S256x1024_0_0
/-- The whole of a weight matrix. -/
abbrev rWt : Rect S1024x4096 := Rect.unit (s := S1024x4096) ![0, 0] S1024x4096.size inb_S1024x4096_S1024x4096_0_0
/-- The whole of the bias row. -/
abbrev rBias : Rect S1x4096 := Rect.unit (s := S1x4096) ![0, 0] S1x4096.size inb_S1x4096_S1x4096_0_0

/-! ## What the body leaves in each output block -/

/-- The hidden-state block after the body: its one whole store, of the hidden-state payload of the input blocks. -/
def out0_6 (x0 x1 x2 : Vec F S256x1024 .f32) (x3 x4 : Vec F S1024x4096 .bf16) (x5 : Vec F S1x4096 .f32) : Vec F S256x1024 .f32 :=
  View.canon [⟨rAct, k0_pay3 (View.ld x0 rAct) (View.ld x1 rAct) (View.ld x3 rWt) (View.ld x4 rWt) (View.ld x5 rBias) (View.ld x2 rAct)⟩]

/-- The cell-state block after the body: its one whole store, of the cell-state payload of the input blocks. -/
def out0_7 (x0 x1 x2 : Vec F S256x1024 .f32) (x3 x4 : Vec F S1024x4096 .bf16) (x5 : Vec F S1x4096 .f32) : Vec F S256x1024 .f32 :=
  View.canon [⟨rAct, k0_pay2 (View.ld x0 rAct) (View.ld x1 rAct) (View.ld x3 rWt) (View.ld x4 rWt) (View.ld x5 rBias) (View.ld x2 rAct)⟩]

/-- One whole store covers the block. -/
theorem coverAct (p0 : Vec F S256x1024 .f32) (y : S256x1024.Idx) :
    ∃ pc ∈ ([⟨rAct, p0⟩] : List (View.Piece (Elt F) S256x1024 .f32)), y ∈ pc.1.set :=
  View.cover_of_tiled [⟨rAct, p0⟩] S256x1024.size (by rfl) y

/-! ## The body's triple -/

set_option maxHeartbeats 1000000 in
/-- The body on whole staging memrefs, the inputs' at read contents and the outputs' at anything, runs to the
    continuation holding the inputs' as they were and the outputs' at the payloads' stores. -/
theorem sound_kernel (c : Dev nD) (E : Set ℕ) (i : grid0.Coords)
    (arg1 : Memref sig .tc .vmem S256x1024 .f32) (harg1 : arg1.IsWhole) (arg2 : Memref sig .tc .vmem S256x1024 .f32) (harg2 : arg2.IsWhole)
    (arg3 : Memref sig .tc .vmem S256x1024 .f32) (harg3 : arg3.IsWhole) (arg4 : Memref sig .tc .vmem S1024x4096 .bf16) (harg4 : arg4.IsWhole)
    (arg5 : Memref sig .tc .vmem S1024x4096 .bf16) (harg5 : arg5.IsWhole) (arg6 : Memref sig .tc .vmem S1x4096 .f32) (harg6 : arg6.IsWhole)
    (arg7 : Memref sig .tc .vmem S256x1024 .f32) (harg7 : arg7.IsWhole) (arg8 : Memref sig .tc .vmem S256x1024 .f32) (harg8 : arg8.IsWhole)
    (x0 x1 x2 : Vec F S256x1024 .f32) (x3 x4 : Vec F S1024x4096 .bf16) (x5 : Vec F S1x4096 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out0_6 x0 x1 x2 x3 x4 x5) ∗ owns (c : Thread nD τ) arg8 fullShare (out0_7 x0 x1 x2 x3 x4 x5)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (coverAct _)
  iexists _; isplitr
  swap; · iexact H7
  ipureintro
  exact View.read_writes_eq_canon _ _ _ (coverAct _)

/-! ## The pipeline's proof data -/

/-- The proof data of the pipeline on core `c`: the arrays as the region finds them; after the body at point `t`
    each input's buffer at its block and each output's at the payload of the input blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out0_6 (iblk m c 0 t) (iblk m c 1 t) (iblk m c 2 t) (iblk m c 3 t) (iblk m c 4 t) (iblk m c 5 t)
    | ⟨7, _⟩ => out0_7 (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = out0_6 (iblk m c 0 t) (iblk m c 1 t) (iblk m c 2 t) (iblk m c 3 t) (iblk m c 4 t) (iblk m c 5 t) := by dsimp only [dats]
theorem after0_7 (c : Dev nD) (t : Fin cfg0.N) : (dats m 0 c).after 7 t = out0_7 (iblk m c 0 t) (iblk m c 1 t) (iblk m c 2 t) (iblk m c 3 t) (iblk m c 4 t) (iblk m c 5 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' memrefs hold their blocks, so the body's triple applies; the invariant and
    the core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates, and every final state has every array of the pipeline
    at what the library computes from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs to the end, faults nowhere, and leaves its argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.Kernel.Run

end
-- ==== Proof.KernelIdealRun.lean ====
/-
  The run of the program: its host operations, then its one pallas_call over a grid of 32 row blocks.

  Entry values: `V` is what each buffer holds when the region is entered, the fold of the nine host operations
  (the two four-way concatenations, the two slices, transposes and conversions of the stacked weights, the bias
  reshaped to one row) over the launch memory; no host operation writes an argument array.

  Body: at a grid point the body loads its six input blocks (the three activation blocks of 256 rows, the two
  resident weight matrices, the bias row), and stores the new hidden state and the new cell state whole into the two
  output blocks; each output block after the body is therefore the payload of the six input blocks. An input block is
  found in its staging buffer at every point, whether it was fetched there (the activations) or once at the first
  point (the weights and the bias, whose block index never moves).

  Launch: the library's frame run for one pipeline with exact proof data; its post names every output array after
  the run and says every other buffer, the arguments among them, is as the region found it.
-/
import proofs.«118925_j77919296684536_1_alg».proof.Proof.Gen.KernelIdeal.Launch
import proofs.«118925_j77919296684536_1_alg».proof.Proof.Gen.KernelIdeal.Skeleton
import proofs.«118925_j77919296684536_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the region -/

/-- Core `c`'s buffers when the region is entered: the launch memory after the nine host operations. -/
abbrev V (c : Dev nD) (b : Ref sig .tc) : Buf (Elt F) ((c : Thread nD τ).loc b) :=
  StableHlo.after (List.flatten [hostOps0]) (fun b => m (c, b)) b

/-- No host operation allocates a buffer. -/
theorem hostOps0_fresh : (hostOps0 : List (HloOp τ sig (Elt F))).Forall fun op => op.fresh = ∅ := by
  simp only [List.Forall]; repeat' constructor

/-- The program is its host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host operation before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point, fetched there or not, for any proof
    data whose array is the entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a frame run the argument arrays end as launched: a staged activation array by the library's reading of an
    input window's array after the run, a weight or bias array because no window stages it; each is then its
    launch contents because no host operation writes it. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩) h

/-! ## The body's accesses -/

/-- The whole of an activation block. -/
abbrev rAct : Rect S256x1024 := Rect.unit (s := S256x1024) ![0, 0] S256x1024.size inb_S256x1024_S256x1024_0_0
/-- The whole of a weight matrix. -/
abbrev rWt : Rect S1024x4096 := Rect.unit (s := S1024x4096) ![0, 0] S1024x4096.size inb_S1024x4096_S1024x4096_0_0
/-- The whole of the bias row. -/
abbrev rBias : Rect S1x4096 := Rect.unit (s := S1x4096) ![0, 0] S1x4096.size inb_S1x4096_S1x4096_0_0

/-! ## What the body leaves in each output block -/

/-- The hidden-state block after the body: its one whole store, of the hidden-state payload of the input blocks. -/
def out0_6 (x0 x1 x2 : Vec F S256x1024 .f32) (x3 x4 : Vec F S1024x4096 .bf16) (x5 : Vec F S1x4096 .f32) : Vec F S256x1024 .f32 :=
  View.canon [⟨rAct, k0_pay3 (View.ld x0 rAct) (View.ld x1 rAct) (View.ld x3 rWt) (View.ld x4 rWt) (View.ld x5 rBias) (View.ld x2 rAct)⟩]

/-- The cell-state block after the body: its one whole store, of the cell-state payload of the input blocks. -/
def out0_7 (x0 x1 x2 : Vec F S256x1024 .f32) (x3 x4 : Vec F S1024x4096 .bf16) (x5 : Vec F S1x4096 .f32) : Vec F S256x1024 .f32 :=
  View.canon [⟨rAct, k0_pay2 (View.ld x0 rAct) (View.ld x1 rAct) (View.ld x3 rWt) (View.ld x4 rWt) (View.ld x5 rBias) (View.ld x2 rAct)⟩]

/-- One whole store covers the block. -/
theorem coverAct (p0 : Vec F S256x1024 .f32) (y : S256x1024.Idx) :
    ∃ pc ∈ ([⟨rAct, p0⟩] : List (View.Piece (Elt F) S256x1024 .f32)), y ∈ pc.1.set :=
  View.cover_of_tiled [⟨rAct, p0⟩] S256x1024.size (by rfl) y

/-! ## The body's triple -/

set_option maxHeartbeats 1000000 in
/-- The body on whole staging memrefs, the inputs' at read contents and the outputs' at anything, runs to the
    continuation holding the inputs' as they were and the outputs' at the payloads' stores. -/
theorem sound_kernel (c : Dev nD) (E : Set ℕ) (i : grid0.Coords)
    (arg1 : Memref sig .tc .vmem S256x1024 .f32) (harg1 : arg1.IsWhole) (arg2 : Memref sig .tc .vmem S256x1024 .f32) (harg2 : arg2.IsWhole)
    (arg3 : Memref sig .tc .vmem S256x1024 .f32) (harg3 : arg3.IsWhole) (arg4 : Memref sig .tc .vmem S1024x4096 .bf16) (harg4 : arg4.IsWhole)
    (arg5 : Memref sig .tc .vmem S1024x4096 .bf16) (harg5 : arg5.IsWhole) (arg6 : Memref sig .tc .vmem S1x4096 .f32) (harg6 : arg6.IsWhole)
    (arg7 : Memref sig .tc .vmem S256x1024 .f32) (harg7 : arg7.IsWhole) (arg8 : Memref sig .tc .vmem S256x1024 .f32) (harg8 : arg8.IsWhole)
    (x0 x1 x2 : Vec F S256x1024 .f32) (x3 x4 : Vec F S1024x4096 .bf16) (x5 : Vec F S1x4096 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out0_6 x0 x1 x2 x3 x4 x5) ∗ owns (c : Thread nD τ) arg8 fullShare (out0_7 x0 x1 x2 x3 x4 x5)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (coverAct _)
  iexists _; isplitr
  swap; · iexact H7
  ipureintro
  exact View.read_writes_eq_canon _ _ _ (coverAct _)

/-! ## The pipeline's proof data -/

/-- The proof data of the pipeline on core `c`: the arrays as the region finds them; after the body at point `t`
    each input's buffer at its block and each output's at the payload of the input blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out0_6 (iblk m c 0 t) (iblk m c 1 t) (iblk m c 2 t) (iblk m c 3 t) (iblk m c 4 t) (iblk m c 5 t)
    | ⟨7, _⟩ => out0_7 (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = out0_6 (iblk m c 0 t) (iblk m c 1 t) (iblk m c 2 t) (iblk m c 3 t) (iblk m c 4 t) (iblk m c 5 t) := by dsimp only [dats]
theorem after0_7 (c : Dev nD) (t : Fin cfg0.N) : (dats m 0 c).after 7 t = out0_7 (iblk m c 0 t) (iblk m c 1 t) (iblk m c 2 t) (iblk m c 3 t) (iblk m c 4 t) (iblk m c 5 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' memrefs hold their blocks, so the body's triple applies; the invariant and
    the core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates, and every final state has every array of the pipeline
    at what the library computes from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs to the end, faults nowhere, and leaves its argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.KernelIdeal.Run

end
-- ==== Proof.Spec.lean ====
/-
  The LSTM cell as one function of its argument arrays, index by index, over the extended reals.

  With W the four gate weight matrices stacked along their rows ([4096, 2048]: rows 0..1023 the forget gate,
  1024..2047 the input gate, 2048..3071 the candidate, 3072..4095 the output gate) and b the four biases stacked
  the same way, the pre-activation of gate column j for batch row r is

      gate r j = (sum over k < 1024 of x[r,k] * W[j,k]) + (sum over k < 1024 of h[r,k] * W[j,1024+k]) + b[j],

  the new cell state is  c'[r,n] = sigma(gate r n) * c[r,n] + sigma(gate r (1024+n)) * tanh(gate r (2048+n)),
  and the new hidden state is  h'[r,n] = sigma(gate r (3072+n)) * tanh(c'[r,n]).

  The one algebraic fact that joins a product against the concatenated input [x | h] (one sum over 2048 terms) with
  the two half products is the splitting of a sum over 2048 = 1024 + 1024 indices into its two halves; it holds in
  any commutative additive monoid, so it needs no finiteness of the entries.
-/
import Idealize.ShloMosaic.PureOps.Ideal
import Idealize.ShloMosaic.PureOps.Ideal.Laws
import Idealize.ShloMosaic.Lib.ValueIdx

noncomputable section

namespace Cert.Lstm

open Idealize.ShloMosaic Idealize.ShloMosaic.ValueIdx

/-- Activations: batch 8192 by width 1024. -/
abbrev SAct : Shape := ⟨2, ![8192, 1024]⟩
/-- The stacked gate weights: 4·1024 rows by 1024 + 1024 columns. -/
abbrev SWt : Shape := ⟨2, ![4096, 2048]⟩
/-- The stacked gate biases. -/
abbrev SBias : Shape := ⟨1, ![4096]⟩

/-- Column k of the input half of the stacked weights. -/
abbrev colX (k : Fin 1024) : Fin 2048 := ⟨k.val, by omega⟩
/-- Column k of the recurrent half of the stacked weights. -/
abbrev colH (k : Fin 1024) : Fin 2048 := ⟨1024 + k.val, by omega⟩

/-- Gate column `off + n` of the stacked gates, for a gate starting at column `off ≤ 3072`. -/
abbrev gcol (off : Nat) (hoff : off ≤ 3072) (n : Fin 1024) : Fin 4096 := ⟨off + n.val, by omega⟩

/-- The pre-activation of gate column `j` for batch row `r`. -/
def gate (x h : SAct.Idx → EReal) (W : SWt.Idx → EReal) (b : SBias.Idx → EReal) (r : Fin 8192) (j : Fin 4096) : EReal :=
  ((∑ k : Fin 1024, x (ix2 r k) * W (ix2 j (colX k))) + ∑ k : Fin 1024, h (ix2 r k) * W (ix2 j (colH k))) + b (ix1 j)

/-- The new cell state. -/
def cell (x h c : SAct.Idx → EReal) (W : SWt.Idx → EReal) (b : SBias.Idx → EReal) (i : SAct.Idx) : EReal :=
  Ideal.logistic (gate x h W b (i 0) (gcol 0 (by omega) (i 1))) * c i
    + Ideal.logistic (gate x h W b (i 0) (gcol 1024 (by omega) (i 1))) * Ideal.tanh (gate x h W b (i 0) (gcol 2048 (by omega) (i 1)))

/-- The new hidden state. -/
def hidden (x h c : SAct.Idx → EReal) (W : SWt.Idx → EReal) (b : SBias.Idx → EReal) (i : SAct.Idx) : EReal :=
  Ideal.logistic (gate x h W b (i 0) (gcol 3072 (by omega) (i 1))) * Ideal.tanh (cell x h c W b i)

/-- A sum over 2048 indices is the sum over the first 1024 plus the sum over the last 1024. -/
theorem sum_halves {M : Type} [AddCommMonoid M] (f : Fin 2048 → M) :
    ∑ k : Fin 2048, f k = (∑ k : Fin 1024, f (colX k)) + ∑ k : Fin 1024, f (colH k) := by
  exact Fin.sum_univ_add (a := 1024) (b := 1024) (f : Fin (1024 + 1024) → M)

end Cert.Lstm

end
-- ==== Proof.Payload.lean ====
/-
  The kernel body's two stored values, read at one entry of the 256-row block, from the six input blocks.
-/
import proofs.«118925_j77919296684536_1_alg».proof.Proof.Gen.KernelIdeal.Skeleton
import proofs.«118925_j77919296684536_1_alg».proof.Proof.Spec
import Idealize.ShloMosaic.Lib.Pipeline.Value
import Idealize.ShloMosaic.Lib.ValueLayout

noncomputable section

namespace Cert.KernelIdeal.Payload

open Cert.KernelIdeal Cert.KernelIdeal.Gen Cert.Lstm
open Idealize.ShloMosaic Idealize.ShloMosaic.ValueIdx

/-- The gate pre-activation the body computes for row `p` of its block and gate column `j`: the block of x against the
    transposed input half of the weights, plus the block of h against the transposed recurrent half, plus the bias row. -/
def bgate (xb hb : S256x1024.Idx → EReal) (wx wh : S1024x4096.Idx → EReal) (bb : S1x4096.Idx → EReal)
    (p : Fin 256) (j : Fin 4096) : EReal :=
  ((∑ k : Fin 1024, xb (ix2 p k) * wx (ix2 k j)) + ∑ k : Fin 1024, hb (ix2 p k) * wh (ix2 k j)) + bb (ix2 (0 : Fin 1) j)

/-! ## The block product's operand indices

The product contracts axis 1 of its [256, 1024] left operand with axis 0 of its [1024, 4096] right operand: at output
entry (r, c) and contraction coordinate k the left operand is read at (r, k) and the right one at (k, c). -/

/-- The left operand's row is the output's row. -/
theorem lhs_block_dot_0 (i : S256x4096.Idx) (q : dot_S256x1024_S1024x4096_S256x4096_1_0_0_1_n_n.contr.Idx) :
    (dot_S256x1024_S1024x4096_S256x4096_1_0_0_1_n_n.lhsIdx i q 0).val = (i 0).val := by
  unfold DotDims.lhsIdx
  rw [dif_neg (show ¬(0 : Fin S256x1024.rank) ∈ dot_S256x1024_S1024x4096_S256x4096_1_0_0_1_n_n.lhsBatch by decide), dif_pos (show (0 : Fin S256x1024.rank) ∈ dot_S256x1024_S1024x4096_S256x4096_1_0_0_1_n_n.lhsNonContracting by decide)]
  rfl

/-- The left operand's column is the contraction coordinate. -/
theorem lhs_block_dot_1 (i : S256x4096.Idx) (q : dot_S256x1024_S1024x4096_S256x4096_1_0_0_1_n_n.contr.Idx) :
    (dot_S256x1024_S1024x4096_S256x4096_1_0_0_1_n_n.lhsIdx i q 1).val = (q ⟨0, by decide⟩).val :=
  dot_S256x1024_S1024x4096_S256x4096_1_0_0_1_n_n.lhsIdx_val_of_single rfl i q

/-- The right operand's row is the contraction coordinate. -/
theorem rhs_block_dot_0 (i : S256x4096.Idx) (q : dot_S256x1024_S1024x4096_S256x4096_1_0_0_1_n_n.contr.Idx) :
    (dot_S256x1024_S1024x4096_S256x4096_1_0_0_1_n_n.rhsIdx i q 0).val = (q ⟨0, by decide⟩).val :=
  dot_S256x1024_S1024x4096_S256x4096_1_0_0_1_n_n.rhsIdx_val_of_single rfl i q

/-- The right operand's column is the output's column. -/
theorem rhs_block_dot_1 (i : S256x4096.Idx) (q : dot_S256x1024_S1024x4096_S256x4096_1_0_0_1_n_n.contr.Idx) :
    (dot_S256x1024_S1024x4096_S256x4096_1_0_0_1_n_n.rhsIdx i q 1).val = (i 1).val := by
  unfold DotDims.rhsIdx
  rw [dif_neg (show ¬(1 : Fin S1024x4096.rank) ∈ dot_S256x1024_S1024x4096_S256x4096_1_0_0_1_n_n.rhsBatch by decide), dif_pos (show (1 : Fin S1024x4096.rank) ∈ dot_S256x1024_S1024x4096_S256x4096_1_0_0_1_n_n.rhsNonContracting by decide)]
  rfl

/-- The block product into a zero accumulator, at entry (p, j): the sum over the 1024 contraction coordinates of the
    left operand's row p against the right operand's column j. -/
theorem block_dot_apply (a : FVec Ideal S256x1024 .bf16) (w : FVec Ideal S1024x4096 .bf16) (p : Fin 256) (j : Fin 4096) :
    matmul dot_S256x1024_S1024x4096_S256x4096_1_0_0_1_n_n none a w (constant S256x4096 .f32 0x00000000#32) (ix2 p j)
      = ∑ k : Fin 1024, a (ix2 p k) * w (ix2 k j) := by
  simp only [matmul]
  rw [Ideal.matmul_constant_zero_apply, ← Equiv.sum_comp (ValueIdx.contrEquiv1 dot_S256x1024_S1024x4096_S256x4096_1_0_0_1_n_n 1024 rfl rfl).symm]
  refine Finset.sum_congr rfl fun k _ => ?_
  have hk := ValueIdx.contrEquiv1_symm_val dot_S256x1024_S1024x4096_S256x4096_1_0_0_1_n_n 1024 rfl rfl k
  have el : dot_S256x1024_S1024x4096_S256x4096_1_0_0_1_n_n.lhsIdx (ix2 p j) ((ValueIdx.contrEquiv1 dot_S256x1024_S1024x4096_S256x4096_1_0_0_1_n_n 1024 rfl rfl).symm k) = ix2 p k := funext fun ax => Fin.ext (by
    match ax with
    | ⟨0, _⟩ => exact lhs_block_dot_0 _ _
    | ⟨1, _⟩ => exact (lhs_block_dot_1 _ _).trans hk)
  have er : dot_S256x1024_S1024x4096_S256x4096_1_0_0_1_n_n.rhsIdx (ix2 p j) ((ValueIdx.contrEquiv1 dot_S256x1024_S1024x4096_S256x4096_1_0_0_1_n_n 1024 rfl rfl).symm k) = ix2 k j := funext fun ax => Fin.ext (by
    match ax with
    | ⟨0, _⟩ => exact (rhs_block_dot_0 _ _).trans hk
    | ⟨1, _⟩ => exact rhs_block_dot_1 _ _)
  rw [el, er]

/-! ## The gate pre-activations -/

/-- The [256, 4096] array of gate pre-activations at entry (p, j). The narrowing of the two activation blocks is the
    identity on extended reals, the casts to the same shape are the identity, and the bias row is repeated down the rows. -/
theorem pay1_apply (x0 x2 : FVec Ideal S256x1024 .f32) (w4 w6 : FVec Ideal S1024x4096 .bf16) (b11 : FVec Ideal S1x4096 .f32)
    (p : Fin 256) (j : Fin 4096) :
    k0_pay1 (F := Ideal) x0 x2 w4 w6 b11 (ix2 p j) = bgate x0 x2 w4 w6 b11 p j := by
  unfold k0_pay1 bgate
  rw [shapeCast_self w4, shapeCast_self w6, shapeCast_self b11]
  rw [addf_apply, addf_apply, block_dot_apply, block_dot_apply, broadcastTo_1b_ab_apply]
  rfl

/-- An entry of one of the four 1024-column slices of the gate pre-activations is the pre-activation of the gate
    column shifted by the slice's offset. -/
theorem slice_apply (off : Nat) (hoff : off ≤ 3072) (v : FVec Ideal S256x4096 .f32) (h : S256x4096.Slices ![0, off] S256x1024)
    (p : Fin 256) (q : Fin 1024) :
    extractStridedSlice S256x1024 ![0, off] v h (ix2 p q) = v (ix2 p (gcol off hoff q)) := by
  refine extractStridedSlice_apply ![0, off] v h (ix2 p q) (ix2 p (gcol off hoff q)) fun ax => ?_
  match ax with
  | ⟨0, _⟩ => show p.val = 0 + p.val; omega
  | ⟨1, _⟩ => rfl

/-- The stored cell state at entry (p, q) of the block. -/
theorem pay2_apply (x0 x2 : Vec Ideal S256x1024 .f32) (w4 w6 : Vec Ideal S1024x4096 .bf16) (b11 : Vec Ideal S1x4096 .f32)
    (c23 : Vec Ideal S256x1024 .f32) (p : Fin 256) (q : Fin 1024) :
    k0_pay2 (F := Ideal) x0 x2 w4 w6 b11 c23 (ix2 p q)
      = Ideal.logistic (bgate x0 x2 w4 w6 b11 p (gcol 0 (by omega) q)) * c23 (ix2 p q)
        + Ideal.logistic (bgate x0 x2 w4 w6 b11 p (gcol 1024 (by omega) q)) * Ideal.tanh (bgate x0 x2 w4 w6 b11 p (gcol 2048 (by omega) q)) := by
  unfold k0_pay2
  show Ideal.logistic (extractStridedSlice S256x1024 ![0, 0] (k0_pay1 (F := Ideal) x0 x2 w4 w6 b11) _ (ix2 p q)) * c23 (ix2 p q)
      + Ideal.logistic (extractStridedSlice S256x1024 ![0, 1024] (k0_pay1 (F := Ideal) x0 x2 w4 w6 b11) _ (ix2 p q))
        * Ideal.tanh (extractStridedSlice S256x1024 ![0, 2048] (k0_pay1 (F := Ideal) x0 x2 w4 w6 b11) _ (ix2 p q)) = _
  rw [slice_apply 0 (by omega), slice_apply 1024 (by omega), slice_apply 2048 (by omega), pay1_apply, pay1_apply, pay1_apply]

/-- The stored hidden state at entry (p, q) of the block. -/
theorem pay3_apply (x0 x2 : Vec Ideal S256x1024 .f32) (w4 w6 : Vec Ideal S1024x4096 .bf16) (b11 : Vec Ideal S1x4096 .f32)
    (c23 : Vec Ideal S256x1024 .f32) (p : Fin 256) (q : Fin 1024) :
    k0_pay3 (F := Ideal) x0 x2 w4 w6 b11 c23 (ix2 p q)
      = Ideal.logistic (bgate x0 x2 w4 w6 b11 p (gcol 3072 (by omega) q)) * Ideal.tanh (k0_pay2 (F := Ideal) x0 x2 w4 w6 b11 c23 (ix2 p q)) := by
  unfold k0_pay3
  show Ideal.logistic (extractStridedSlice S256x1024 ![0, 3072] (k0_pay1 (F := Ideal) x0 x2 w4 w6 b11) _ (ix2 p q))
      * Ideal.tanh (k0_pay2 (F := Ideal) x0 x2 w4 w6 b11 c23 (ix2 p q)) = _
  rw [slice_apply 3072 (by omega), pay1_apply]

end Cert.KernelIdeal.Payload

end
-- ==== Proof.KernelValue.lean ====
/-
  What the idealized kernel's two result arrays hold after the run, as the specification's functions of the arguments.

  Entry values. When the region is entered, the first weight operand holds W[j, k] at (k, j) (the input half of the
  stacked weights, sliced, transposed, its change of float format the identity over the extended reals), the second
  holds W[j, 1024 + k] at (k, j), and the bias operand holds b[j] at (0, j) (the stacked biases as one row).

  Blocks. Grid point t stages rows 256 t .. 256 t + 255 of x, h and c, and the whole of the two weight operands and
  the bias row; it writes back rows 256 t .. 256 t + 255 of the two results. Row p of the block is row 256 t + p
  of the array, so the gate pre-activations the body forms from its blocks are the specification's gates of row
  256 t + p, and what the point writes back is its block of the specification's hidden state and cell state.

  Cover. Row r of a result lies in the block of point r / 256, and the 32 points cover all 8192 rows, so each result
  array after the run is the specification's function on every index.
-/
import proofs.«118925_j77919296684536_1_alg».proof.Proof.KernelIdealRun
import proofs.«118925_j77919296684536_1_alg».proof.Proof.Payload
import proofs.«118925_j77919296684536_1_alg».proof.Proof.Spec
import Idealize.ShloMosaic.Lib.Pipeline.Value
import Idealize.ShloMosaic.Lib.StableHlo.Run

noncomputable section

namespace Cert.KernelIdeal.KValue

open Cert.KernelIdeal Cert.KernelIdeal.Gen Cert.KernelIdeal.Run Cert.KernelIdeal.Payload Cert.Lstm
open Idealize.ShloMosaic Idealize.ShloMosaic.TcCoe Idealize.SL.Sem Idealize.ShloMosaic.ValueIdx
open Idealize.ShloMosaic.StableHlo
open Idealize.ShloMosaic.Pipeline (Dat)

variable (m : (ℓ : Loc nD τ sig) → Buf (Elt Ideal) ℓ) (ρ : Dev nD → PrngReg)

/-! ## The stacked weights and biases, and the operands the host operations make of them -/

/-- The four gate weight matrices stacked by rows. -/
def Wall (c : Dev nD) : FVec Ideal S4096x2048 .f32 :=
  concatenate S4096x2048 0 [⟨S1024x2048, m ((c : Thread nD τ).loc main_arg3)⟩, ⟨S1024x2048, m ((c : Thread nD τ).loc main_arg5)⟩, ⟨S1024x2048, m ((c : Thread nD τ).loc main_arg7)⟩, ⟨S1024x2048, m ((c : Thread nD τ).loc main_arg9)⟩] Facts₀.concatenates_S1024x2048_S1024x2048_S1024x2048_S1024x2048_S4096x2048_d0

/-- The four gate biases stacked. -/
def ball (c : Dev nD) : FVec Ideal S4096 .f32 :=
  concatenate S4096 0 [⟨S1024, m ((c : Thread nD τ).loc main_arg4)⟩, ⟨S1024, m ((c : Thread nD τ).loc main_arg6)⟩, ⟨S1024, m ((c : Thread nD τ).loc main_arg8)⟩, ⟨S1024, m ((c : Thread nD τ).loc main_arg10)⟩] Facts₀.concatenates_S1024_S1024_S1024_S1024_S4096_d0

/-- The input-half weight operand at region entry: the first 1024 columns of the stack, transposed. -/
theorem entry_wx (c : Dev nD) : V m c main_v4
    = truncf (F := Ideal) .bf16 (transpose S1024x4096 [1, 0] (extractStridedSlice S4096x1024 ![0, 0] (Wall m c) Facts₀.slices_S4096x2048_S4096x1024_0_0) Facts₀.transposes_S4096x1024_S1024x4096_1_0) Facts₀.bitsLt_bf16_f32 := by
  dsimp only [V]
  simp only [hostOps0, List.flatten_cons, List.flatten_nil, List.append_nil]
  after_results
  rfl

/-- The recurrent-half weight operand at region entry: the last 1024 columns of the stack, transposed. -/
theorem entry_wh (c : Dev nD) : V m c main_v7
    = truncf (F := Ideal) .bf16 (transpose S1024x4096 [1, 0] (extractStridedSlice S4096x1024 ![0, 1024] (Wall m c) Facts₀.slices_S4096x2048_S4096x1024_0_1024) Facts₀.transposes_S4096x1024_S1024x4096_1_0) Facts₀.bitsLt_bf16_f32 := by
  dsimp only [V]
  simp only [hostOps0, List.flatten_cons, List.flatten_nil, List.append_nil]
  after_results
  rfl

/-- The bias operand at region entry: the stacked biases as one row. -/
theorem entry_bias (c : Dev nD) : V m c main_v8 = shapeCast S1x4096 (ball m c) Facts₀.shapeCasts_S4096_S1x4096 := by
  dsimp only [V]
  simp only [hostOps0, List.flatten_cons, List.flatten_nil, List.append_nil]
  after_results
  dsimp only
  rfl

/-- Entry (k, j) of the input-half operand is W[j, k]. -/
theorem wx_apply (c : Dev nD) (k : Fin 1024) (j : Fin 4096) : V m c main_v4 (ix2 k j) = Wall m c (ix2 j (colX k)) := by
  rw [entry_wx]
  refine (truncf_apply (ψ := .bf16) _ Facts₀.bitsLt_bf16_f32 (ix2 k j)).trans ?_
  refine (transpose_apply (s := S4096x1024) (t := S1024x4096) [1, 0] _ Facts₀.transposes_S4096x1024_S1024x4096_1_0 (ix2 k j) (ix2 j k) (fun b => by
    match b with
    | ⟨0, _⟩ => rfl
    | ⟨1, _⟩ => rfl)).trans ?_
  exact extractStridedSlice_apply (s := S4096x2048) (t := S4096x1024) ![0, 0] _ Facts₀.slices_S4096x2048_S4096x1024_0_0 (ix2 j k) (ix2 j (colX k)) (fun a => by
    match a with
    | ⟨0, _⟩ => show j.val = 0 + j.val; omega
    | ⟨1, _⟩ => show k.val = 0 + k.val; omega)

/-- Entry (k, j) of the recurrent-half operand is W[j, 1024 + k]. -/
theorem wh_apply (c : Dev nD) (k : Fin 1024) (j : Fin 4096) : V m c main_v7 (ix2 k j) = Wall m c (ix2 j (colH k)) := by
  rw [entry_wh]
  refine (truncf_apply (ψ := .bf16) _ Facts₀.bitsLt_bf16_f32 (ix2 k j)).trans ?_
  refine (transpose_apply (s := S4096x1024) (t := S1024x4096) [1, 0] _ Facts₀.transposes_S4096x1024_S1024x4096_1_0 (ix2 k j) (ix2 j k) (fun b => by
    match b with
    | ⟨0, _⟩ => rfl
    | ⟨1, _⟩ => rfl)).trans ?_
  exact extractStridedSlice_apply (s := S4096x2048) (t := S4096x1024) ![0, 1024] _ Facts₀.slices_S4096x2048_S4096x1024_0_1024 (ix2 j k) (ix2 j (colH k)) (fun a => by
    match a with
    | ⟨0, _⟩ => show j.val = 0 + j.val; omega
    | ⟨1, _⟩ => show 1024 + k.val = 1024 + k.val; rfl)

/-- Entry (0, j) of the bias operand is b[j]. -/
theorem bias_apply (c : Dev nD) (j : Fin 4096) : V m c main_v8 (ix2 (0 : Fin 1) j) = ball m c (ix1 j) := by
  rw [entry_bias]
  refine (shapeCast_addUnit_apply ![4096] (ball m c) Facts₀.shapeCasts_S4096_S1x4096 (ix2 (0 : Fin 1) j)).trans ?_
  exact congrArg (ball m c) (funext fun a => by
    match a with
    | ⟨0, _⟩ => rfl)

/-! ## The windows' blocks -/

/-- The printed index maps, decided over the 32 grid points: the activation and result windows are at row block t,
    the weight and bias windows at their one block. -/
theorem idx_rows : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0) :=
  (by decide +kernel : ∀ t : Fin grid0.N, _)

theorem point_lt (t : Fin cfg0.N) : t.val < 32 := Nat.lt_of_lt_of_eq t.isLt N_0

/-- The six input blocks at a point, at their literal shapes. -/
abbrev xBlk (c : Dev nD) (t : Fin cfg0.N) : Vec Ideal S256x1024 .f32 := iblk m c 0 t
abbrev hBlk (c : Dev nD) (t : Fin cfg0.N) : Vec Ideal S256x1024 .f32 := iblk m c 1 t
abbrev cBlk (c : Dev nD) (t : Fin cfg0.N) : Vec Ideal S256x1024 .f32 := iblk m c 2 t
abbrev wxBlk (c : Dev nD) (t : Fin cfg0.N) : Vec Ideal S1024x4096 .bf16 := iblk m c 3 t
abbrev whBlk (c : Dev nD) (t : Fin cfg0.N) : Vec Ideal S1024x4096 .bf16 := iblk m c 4 t
abbrev bBlk (c : Dev nD) (t : Fin cfg0.N) : Vec Ideal S1x4096 .f32 := iblk m c 5 t

/-- Row p of the block of x at point t is row 256 t + p of x. -/
theorem xBlk_apply (c : Dev nD) (t : Fin cfg0.N) (p : Fin 256) (k : Fin 1024) :
    xBlk m c t (ix2 p k) = m ((c : Thread nD τ).loc main_arg0) (ix2 (⟨256 * t.val + p.val, by have := point_lt t; omega⟩ : Fin 8192) k) := by
  have ht := point_lt t
  obtain ⟨⟨e0, e1⟩, -⟩ := idx_rows t
  show V m c main_arg0 (((cfg0.win 0).blk t).view.emb (ix2 p k)) = _
  rw [V_main_arg0]
  refine congrArg _ (funext fun a => Fin.ext ?_)
  match a with
  | ⟨0, _⟩ => show win0_0.index t (0 : Fin 2) * 256 + 1 * p.val = 256 * t.val + p.val; omega
  | ⟨1, _⟩ => show win0_0.index t (1 : Fin 2) * 1024 + 1 * k.val = k.val; omega

/-- Row p of the block of h at point t is row 256 t + p of h. -/
theorem hBlk_apply (c : Dev nD) (t : Fin cfg0.N) (p : Fin 256) (k : Fin 1024) :
    hBlk m c t (ix2 p k) = m ((c : Thread nD τ).loc main_arg1) (ix2 (⟨256 * t.val + p.val, by have := point_lt t; omega⟩ : Fin 8192) k) := by
  have ht := point_lt t
  obtain ⟨-, ⟨e0, e1⟩, -⟩ := idx_rows t
  show V m c main_arg1 (((cfg0.win 1).blk t).view.emb (ix2 p k)) = _
  rw [V_main_arg1]
  refine congrArg _ (funext fun a => Fin.ext ?_)
  match a with
  | ⟨0, _⟩ => show win0_1.index t (0 : Fin 2) * 256 + 1 * p.val = 256 * t.val + p.val; omega
  | ⟨1, _⟩ => show win0_1.index t (1 : Fin 2) * 1024 + 1 * k.val = k.val; omega

/-- Row p of the block of c at point t is row 256 t + p of c. -/
theorem cBlk_apply (c : Dev nD) (t : Fin cfg0.N) (p : Fin 256) (k : Fin 1024) :
    cBlk m c t (ix2 p k) = m ((c : Thread nD τ).loc main_arg2) (ix2 (⟨256 * t.val + p.val, by have := point_lt t; omega⟩ : Fin 8192) k) := by
  have ht := point_lt t
  obtain ⟨-, -, ⟨e0, e1⟩, -⟩ := idx_rows t
  show V m c main_arg2 (((cfg0.win 2).blk t).view.emb (ix2 p k)) = _
  rw [V_main_arg2]
  refine congrArg _ (funext fun a => Fin.ext ?_)
  match a with
  | ⟨0, _⟩ => show win0_2.index t (0 : Fin 2) * 256 + 1 * p.val = 256 * t.val + p.val; omega
  | ⟨1, _⟩ => show win0_2.index t (1 : Fin 2) * 1024 + 1 * k.val = k.val; omega

/-- The input-half weight block is the whole operand: entry (k, j) is W[j, k]. -/
theorem wxBlk_apply (c : Dev nD) (t : Fin cfg0.N) (k : Fin 1024) (j : Fin 4096) :
    wxBlk m c t (ix2 k j) = Wall m c (ix2 j (colX k)) := by
  obtain ⟨-, -, -, ⟨e0, e1⟩, -⟩ := idx_rows t
  show V m c main_v4 (((cfg0.win 3).blk t).view.emb (ix2 k j)) = _
  rw [← wx_apply]
  refine congrArg _ (funext fun a => Fin.ext ?_)
  match a with
  | ⟨0, _⟩ => show win0_3.index t (0 : Fin 2) * 1024 + 1 * k.val = k.val; omega
  | ⟨1, _⟩ => show win0_3.index t (1 : Fin 2) * 4096 + 1 * j.val = j.val; omega

/-- The recurrent-half weight block is the whole operand: entry (k, j) is W[j, 1024 + k]. -/
theorem whBlk_apply (c : Dev nD) (t : Fin cfg0.N) (k : Fin 1024) (j : Fin 4096) :
    whBlk m c t (ix2 k j) = Wall m c (ix2 j (colH k)) := by
  obtain ⟨-, -, -, -, ⟨e0, e1⟩, -⟩ := idx_rows t
  show V m c main_v7 (((cfg0.win 4).blk t).view.emb (ix2 k j)) = _
  rw [← wh_apply]
  refine congrArg _ (funext fun a => Fin.ext ?_)
  match a with
  | ⟨0, _⟩ => show win0_4.index t (0 : Fin 2) * 1024 + 1 * k.val = k.val; omega
  | ⟨1, _⟩ => show win0_4.index t (1 : Fin 2) * 4096 + 1 * j.val = j.val; omega

/-- The bias block is the whole bias row: entry (0, j) is b[j]. -/
theorem bBlk_apply (c : Dev nD) (t : Fin cfg0.N) (j : Fin 4096) :
    bBlk m c t (ix2 (0 : Fin 1) j) = ball m c (ix1 j) := by
  obtain ⟨-, -, -, -, -, ⟨e0, e1⟩, -⟩ := idx_rows t
  show V m c main_v8 (((cfg0.win 5).blk t).view.emb (ix2 (0 : Fin 1) j)) = _
  rw [← bias_apply]
  refine congrArg _ (funext fun a => Fin.ext ?_)
  match a with
  | ⟨0, _⟩ => show win0_5.index t (0 : Fin 2) * 1 + 1 * 0 = 0; omega
  | ⟨1, _⟩ => show win0_5.index t (1 : Fin 2) * 4096 + 1 * j.val = j.val; omega

/-! ## The payloads of a row block are the specification's -/

/-- For blocks that are rows r0 .. r0 + 255 of x, h, c and the operands made of W and b, the body's gates are the
    specification's gates of row r0 + p. -/
theorem block_gate (X H : SAct.Idx → EReal) (W : SWt.Idx → EReal) (b : SBias.Idx → EReal) (r0 : Nat) (hr0 : r0 + 256 ≤ 8192)
    (xb hb : Vec Ideal S256x1024 .f32) (wx wh : Vec Ideal S1024x4096 .bf16) (bb : Vec Ideal S1x4096 .f32)
    (hx : ∀ (p : Fin 256) (k : Fin 1024), xb (ix2 p k) = X (ix2 (⟨r0 + p.val, by omega⟩ : Fin 8192) k))
    (hh : ∀ (p : Fin 256) (k : Fin 1024), hb (ix2 p k) = H (ix2 (⟨r0 + p.val, by omega⟩ : Fin 8192) k))
    (hwx : ∀ (k : Fin 1024) (j : Fin 4096), wx (ix2 k j) = W (ix2 j (colX k)))
    (hwh : ∀ (k : Fin 1024) (j : Fin 4096), wh (ix2 k j) = W (ix2 j (colH k)))
    (hbb : ∀ j : Fin 4096, bb (ix2 (0 : Fin 1) j) = b (ix1 j))
    (p : Fin 256) (j : Fin 4096) :
    bgate xb hb wx wh bb p j = gate X H W b (⟨r0 + p.val, by omega⟩ : Fin 8192) j := by
  unfold bgate gate
  simp only [hx, hh, hwx, hwh, hbb]

/-- The stored cell state of such blocks is the specification's cell state of row r0 + p. -/
theorem block_cell (X H C : SAct.Idx → EReal) (W : SWt.Idx → EReal) (b : SBias.Idx → EReal) (r0 : Nat) (hr0 : r0 + 256 ≤ 8192)
    (xb hb cb : Vec Ideal S256x1024 .f32) (wx wh : Vec Ideal S1024x4096 .bf16) (bb : Vec Ideal S1x4096 .f32)
    (hx : ∀ (p : Fin 256) (k : Fin 1024), xb (ix2 p k) = X (ix2 (⟨r0 + p.val, by omega⟩ : Fin 8192) k))
    (hh : ∀ (p : Fin 256) (k : Fin 1024), hb (ix2 p k) = H (ix2 (⟨r0 + p.val, by omega⟩ : Fin 8192) k))
    (hc : ∀ (p : Fin 256) (k : Fin 1024), cb (ix2 p k) = C (ix2 (⟨r0 + p.val, by omega⟩ : Fin 8192) k))
    (hwx : ∀ (k : Fin 1024) (j : Fin 4096), wx (ix2 k j) = W (ix2 j (colX k)))
    (hwh : ∀ (k : Fin 1024) (j : Fin 4096), wh (ix2 k j) = W (ix2 j (colH k)))
    (hbb : ∀ j : Fin 4096, bb (ix2 (0 : Fin 1) j) = b (ix1 j))
    (p : Fin 256) (q : Fin 1024) :
    k0_pay2 (F := Ideal) xb hb wx wh bb cb (ix2 p q) = cell X H C W b (ix2 (⟨r0 + p.val, by omega⟩ : Fin 8192) q) := by
  rw [pay2_apply, block_gate X H W b r0 hr0 xb hb wx wh bb hx hh hwx hwh hbb, block_gate X H W b r0 hr0 xb hb wx wh bb hx hh hwx hwh hbb,
    block_gate X H W b r0 hr0 xb hb wx wh bb hx hh hwx hwh hbb, hc]
  rfl

/-- The stored hidden state of such blocks is the specification's hidden state of row r0 + p. -/
theorem block_hidden (X H C : SAct.Idx → EReal) (W : SWt.Idx → EReal) (b : SBias.Idx → EReal) (r0 : Nat) (hr0 : r0 + 256 ≤ 8192)
    (xb hb cb : Vec Ideal S256x1024 .f32) (wx wh : Vec Ideal S1024x4096 .bf16) (bb : Vec Ideal S1x4096 .f32)
    (hx : ∀ (p : Fin 256) (k : Fin 1024), xb (ix2 p k) = X (ix2 (⟨r0 + p.val, by omega⟩ : Fin 8192) k))
    (hh : ∀ (p : Fin 256) (k : Fin 1024), hb (ix2 p k) = H (ix2 (⟨r0 + p.val, by omega⟩ : Fin 8192) k))
    (hc : ∀ (p : Fin 256) (k : Fin 1024), cb (ix2 p k) = C (ix2 (⟨r0 + p.val, by omega⟩ : Fin 8192) k))
    (hwx : ∀ (k : Fin 1024) (j : Fin 4096), wx (ix2 k j) = W (ix2 j (colX k)))
    (hwh : ∀ (k : Fin 1024) (j : Fin 4096), wh (ix2 k j) = W (ix2 j (colH k)))
    (hbb : ∀ j : Fin 4096, bb (ix2 (0 : Fin 1) j) = b (ix1 j))
    (p : Fin 256) (q : Fin 1024) :
    k0_pay3 (F := Ideal) xb hb wx wh bb cb (ix2 p q) = hidden X H C W b (ix2 (⟨r0 + p.val, by omega⟩ : Fin 8192) q) := by
  rw [pay3_apply, block_gate X H W b r0 hr0 xb hb wx wh bb hx hh hwx hwh hbb,
    block_cell X H C W b r0 hr0 xb hb cb wx wh bb hx hh hc hwx hwh hbb]
  rfl

/-! ## What each point writes back -/

theorem hz : (![0, 0] : Fin 2 → Nat) = fun _ => 0 := funext fun a => by fin_cases a <;> rfl

/-- The specification's hidden state of the launch arguments on core c. -/
def hiddenOf (c : Dev nD) : SAct.Idx → EReal :=
  hidden (m ((c : Thread nD τ).loc main_arg0)) (m ((c : Thread nD τ).loc main_arg1)) (m ((c : Thread nD τ).loc main_arg2)) (Wall m c) (ball m c)

/-- The specification's cell state of the launch arguments on core c. -/
def cellOf (c : Dev nD) : SAct.Idx → EReal :=
  cell (m ((c : Thread nD τ).loc main_arg0)) (m ((c : Thread nD τ).loc main_arg1)) (m ((c : Thread nD τ).loc main_arg2)) (Wall m c) (ball m c)

/-- Row p of the result block of point t is row 256 t + p of the result. -/
theorem emb6 (t : Fin cfg0.N) (p : Fin 256) (q : Fin 1024) :
    ((cfg0.win 6).blk t).view.emb (ix2 p q) = ix2 (⟨256 * t.val + p.val, by have := point_lt t; omega⟩ : Fin 8192) q := by
  have ht := point_lt t
  obtain ⟨-, -, -, -, -, -, ⟨e0, e1⟩, -⟩ := idx_rows t
  funext a; apply Fin.ext
  match a with
  | ⟨0, _⟩ => show win0_6.index t (0 : Fin 2) * 256 + 1 * p.val = 256 * t.val + p.val; omega
  | ⟨1, _⟩ => show win0_6.index t (1 : Fin 2) * 1024 + 1 * q.val = q.val; omega

theorem emb7 (t : Fin cfg0.N) (p : Fin 256) (q : Fin 1024) :
    ((cfg0.win 7).blk t).view.emb (ix2 p q) = ix2 (⟨256 * t.val + p.val, by have := point_lt t; omega⟩ : Fin 8192) q := by
  have ht := point_lt t
  obtain ⟨-, -, -, -, -, -, -, ⟨e0, e1⟩⟩ := idx_rows t
  funext a; apply Fin.ext
  match a with
  | ⟨0, _⟩ => show win0_7.index t (0 : Fin 2) * 256 + 1 * p.val = 256 * t.val + p.val; omega
  | ⟨1, _⟩ => show win0_7.index t (1 : Fin 2) * 1024 + 1 * q.val = q.val; omega

/-- Point t writes back its block of the specification's hidden state. -/
theorem flushed6_eq (c : Dev nD) (t : Fin cfg0.N) :
    (dats m 0 c).flushed 6 t = ((cfg0.win 6).blk t).view.read (Elt Ideal) (hiddenOf m c) := by
  have ht := point_lt t
  show (cfg0.win 6).cut (grid0.coords t) ((dats m 0 c).after 6 t) = _
  rw [after0_6]
  unfold out0_6
  rw [View.canon_unit_zero hz]
  simp only [View.ld_unit_zero (S := S256x1024) hz, View.ld_unit_zero (S := S1024x4096) hz, View.ld_unit_zero (S := S1x4096) hz]
  funext y
  obtain ⟨p, q, rfl⟩ : ∃ (p : Fin 256) (q : Fin 1024), y = ix2 p q := ⟨y 0, y 1, eq_ix2 y⟩
  show k0_pay3 (F := Ideal) (xBlk m c t) (hBlk m c t) (wxBlk m c t) (whBlk m c t) (bBlk m c t) (cBlk m c t) (ix2 p q)
    = hiddenOf m c (((cfg0.win 6).blk t).view.emb (ix2 p q))
  rw [emb6]
  exact block_hidden (m ((c : Thread nD τ).loc main_arg0)) (m ((c : Thread nD τ).loc main_arg1)) (m ((c : Thread nD τ).loc main_arg2)) (Wall m c) (ball m c) (256 * t.val) (by omega)
    (xBlk m c t) (hBlk m c t) (cBlk m c t) (wxBlk m c t) (whBlk m c t) (bBlk m c t)
    (xBlk_apply m c t) (hBlk_apply m c t) (cBlk_apply m c t) (wxBlk_apply m c t) (whBlk_apply m c t) (bBlk_apply m c t) p q

/-- Point t writes back its block of the specification's cell state. -/
theorem flushed7_eq (c : Dev nD) (t : Fin cfg0.N) :
    (dats m 0 c).flushed 7 t = ((cfg0.win 7).blk t).view.read (Elt Ideal) (cellOf m c) := by
  have ht := point_lt t
  show (cfg0.win 7).cut (grid0.coords t) ((dats m 0 c).after 7 t) = _
  rw [after0_7]
  unfold out0_7
  rw [View.canon_unit_zero hz]
  simp only [View.ld_unit_zero (S := S256x1024) hz, View.ld_unit_zero (S := S1024x4096) hz, View.ld_unit_zero (S := S1x4096) hz]
  funext y
  obtain ⟨p, q, rfl⟩ : ∃ (p : Fin 256) (q : Fin 1024), y = ix2 p q := ⟨y 0, y 1, eq_ix2 y⟩
  show k0_pay2 (F := Ideal) (xBlk m c t) (hBlk m c t) (wxBlk m c t) (whBlk m c t) (bBlk m c t) (cBlk m c t) (ix2 p q)
    = cellOf m c (((cfg0.win 7).blk t).view.emb (ix2 p q))
  rw [emb7]
  exact block_cell (m ((c : Thread nD τ).loc main_arg0)) (m ((c : Thread nD τ).loc main_arg1)) (m ((c : Thread nD τ).loc main_arg2)) (Wall m c) (ball m c) (256 * t.val) (by omega)
    (xBlk m c t) (hBlk m c t) (cBlk m c t) (wxBlk m c t) (whBlk m c t) (bBlk m c t)
    (xBlk_apply m c t) (hBlk_apply m c t) (cBlk_apply m c t) (wxBlk_apply m c t) (whBlk_apply m c t) (bBlk_apply m c t) p q

/-! ## The 32 row blocks cover each result -/

theorem mem_blk6 (t : Fin cfg0.N) (i : S8192x1024.Idx) :
    i ∈ ((cfg0.win 6).blk t).view.set ↔ ∀ a : Fin 2, win0_6.index t a * S256x1024.size a ≤ (i a).val ∧ (i a).val < win0_6.index t a * S256x1024.size a + S256x1024.size a := by
  show i ∈ ((View.whole main_v9_0).slice (win0_6.rect t)).set ↔ _
  rw [View.set_slice_whole, Rect.mem_set_unit]
  exact Iff.rfl

theorem mem_blk7 (t : Fin cfg0.N) (i : S8192x1024.Idx) :
    i ∈ ((cfg0.win 7).blk t).view.set ↔ ∀ a : Fin 2, win0_7.index t a * S256x1024.size a ≤ (i a).val ∧ (i a).val < win0_7.index t a * S256x1024.size a + S256x1024.size a := by
  show i ∈ ((View.whole main_v9_1).slice (win0_7.rect t)).set ↔ _
  rw [View.set_slice_whole, Rect.mem_set_unit]
  exact Iff.rfl

/-- The point whose block holds row r: r / 256. -/
def pointOf (i : S8192x1024.Idx) : Fin cfg0.N :=
  Fin.cast N_0.symm (⟨(i 0).val / 256, by have h0 : (i 0).val < 8192 := (i 0).isLt; omega⟩ : Fin 32)

theorem pointOf_val (i : S8192x1024.Idx) : (pointOf i).val = (i 0).val / 256 := rfl

/-- Every index of the hidden-state array is in the block of the point of its row. -/
theorem cover6 (i : S8192x1024.Idx) : ∃ t : Fin cfg0.N, (cfg0.win 6).flush t = true ∧ i ∈ ((cfg0.win 6).blk t).view.set := by
  have h0 : (i 0).val < 8192 := (i 0).isLt
  have h1 : (i 1).val < 1024 := (i 1).isLt
  refine ⟨pointOf i, flush0_6 _, ?_⟩
  obtain ⟨-, -, -, -, -, -, ⟨e0, e1⟩, -⟩ := idx_rows (pointOf i)
  rw [pointOf_val] at e0
  rw [mem_blk6]
  intro a
  match a with
  | ⟨0, _⟩ => show win0_6.index (pointOf i) (0 : Fin 2) * 256 ≤ (i 0).val ∧ (i 0).val < win0_6.index (pointOf i) (0 : Fin 2) * 256 + 256; omega
  | ⟨1, _⟩ => show win0_6.index (pointOf i) (1 : Fin 2) * 1024 ≤ (i 1).val ∧ (i 1).val < win0_6.index (pointOf i) (1 : Fin 2) * 1024 + 1024; omega

/-- Every index of the cell-state array is in the block of the point of its row. -/
theorem cover7 (i : S8192x1024.Idx) : ∃ t : Fin cfg0.N, (cfg0.win 7).flush t = true ∧ i ∈ ((cfg0.win 7).blk t).view.set := by
  have h0 : (i 0).val < 8192 := (i 0).isLt
  have h1 : (i 1).val < 1024 := (i 1).isLt
  refine ⟨pointOf i, flush0_7 _, ?_⟩
  obtain ⟨-, -, -, -, -, -, -, ⟨e0, e1⟩⟩ := idx_rows (pointOf i)
  rw [pointOf_val] at e0
  rw [mem_blk7]
  intro a
  match a with
  | ⟨0, _⟩ => show win0_7.index (pointOf i) (0 : Fin 2) * 256 ≤ (i 0).val ∧ (i 0).val < win0_7.index (pointOf i) (0 : Fin 2) * 256 + 256; omega
  | ⟨1, _⟩ => show win0_7.index (pointOf i) (1 : Fin 2) * 1024 ≤ (i 1).val ∧ (i 1).val < win0_7.index (pointOf i) (1 : Fin 2) * 1024 + 1024; omega

/-- The hidden-state array after the run is the specification's hidden state. -/
theorem final6 (c : Dev nD) : (dats m 0 c).arrAt 6 cfg0.N = hiddenOf m c :=
  (dats m 0 c).arrAt_eq_of_cover 6 (hiddenOf m c) (fun t _ => flushed6_eq m c t) cover6

/-- The cell-state array after the run is the specification's cell state. -/
theorem final7 (c : Dev nD) : (dats m 0 c).arrAt 7 cfg0.N = cellOf m c :=
  (dats m 0 c).arrAt_eq_of_cover 7 (cellOf m c) (fun t _ => flushed7_eq m c t) cover7

/-! ## The run, read -/

/-- Every weakly fair execution of the idealized kernel terminates with the two results at the specification's hidden
    state and cell state of the launch arguments, and the arguments unchanged. -/
theorem run : θ_run defs (onTc (τ := τ) (main (F := Ideal))) ⟨m, fun _ => 0, ρ⟩ fun r => ∀ c : Dev nD,
      r.2.mem ((c : Thread nD τ).loc main_v9_0) = hiddenOf m c
      ∧ r.2.mem ((c : Thread nD τ).loc main_v9_1) = cellOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨((h c).1 6).trans (final6 m c), ((h c).1 7).trans (final7 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩)
    (run_main m ρ)

end Cert.KernelIdeal.KValue

end
-- ==== Proof.RefValue.lean ====
/-
  The reference's two results, stage by stage, are the specification's hidden state and cell state of the argument
  arrays, with the four gate weight matrices and the four biases entering only through their row-wise stacks.
-/
import proofs.«118925_j77919296684536_1_alg».proof.Proof.Gen.ReferenceIdeal.Read
import proofs.«118925_j77919296684536_1_alg».proof.Proof.Spec

noncomputable section

namespace Cert.ReferenceIdeal.RefValue

open Cert.ReferenceIdeal Cert.ReferenceIdeal.Gen Cert.ReferenceIdeal.Read Cert.Lstm
open Idealize.ShloMosaic Idealize.ShloMosaic.ValueIdx

/-- The bit word of the literal one is the extended real one. -/
theorem ofBits_one_f32 : Ideal.ofBits .f32 0x3F800000#32 = 1 := by
  simp [Ideal.ofBits, Ideal.ieee]
  rw [← EReal.coe_mul, ← EReal.coe_one]
  congr 1
  norm_num

/-- The joined input [x | h] at a column of its left half is x. -/
theorem input_colX (x0 x1 : (⟨S8192x1024, .f32⟩ : BufTy).Contents (Elt Ideal)) (r : Fin 8192) (k : Fin 1024) :
    val_main_v0 (F := Ideal) x0 x1 (ix2 r (colX k)) = x0 (ix2 r k) := by
  unfold val_main_v0
  exact concatenate_pair_apply_left 1 x0 x1 concatenates_S8192x1024_S8192x1024_S8192x2048_d1 (ix2 r (colX k)) rfl (ix2 r k)
    (fun b => match b with | ⟨0, _⟩ => rfl | ⟨1, _⟩ => rfl)

/-- The joined input [x | h] at a column of its right half is h. -/
theorem input_colH (x0 x1 : (⟨S8192x1024, .f32⟩ : BufTy).Contents (Elt Ideal)) (r : Fin 8192) (k : Fin 1024) :
    val_main_v0 (F := Ideal) x0 x1 (ix2 r (colH k)) = x1 (ix2 r k) := by
  unfold val_main_v0
  exact concatenate_pair_apply_right 1 x0 x1 concatenates_S8192x1024_S8192x1024_S8192x2048_d1 (ix2 r (colH k)) rfl rfl (ix2 r k)
    (fun b => match b with | ⟨0, _⟩ => fun _ => rfl | ⟨1, _⟩ => fun hb => absurd rfl hb)
    (by show k.val + 1024 = 1024 + k.val; omega)

/-- The left operand's index of term k of the product at (r, j) is (r, k). -/
theorem lidx_eq (r : Fin 8192) (j : Fin 4096) (k : Fin 2048) : lidx_main_v4 (ix2 r j) k = ix2 r k :=
  funext fun a => Fin.ext (by match a with | ⟨0, _⟩ => rfl | ⟨1, _⟩ => rfl)

/-- The transposed weights at term k of the product at (r, j) are the stacked weights at (j, k). -/
theorem widx_eq (r : Fin 8192) (j : Fin 4096) (k : Fin 2048) : idx_main_v3 (ridx_main_v4 (ix2 r j) k) = ix2 j k :=
  funext fun a => Fin.ext (by match a with | ⟨0, _⟩ => rfl | ⟨1, _⟩ => rfl)

/-- The broadcast bias at (r, j) is the stacked bias at j. -/
theorem bidx_eq (r : Fin 8192) (j : Fin 4096) : idx_main_v5 (idx_main_v6 (ix2 r j)) = ix1 j :=
  funext fun a => Fin.ext (by match a with | ⟨0, _⟩ => rfl)

/-- The reference's stacked pre-activations at (r, j) are the specification's gate. -/
theorem gates_apply (x0 x1 : (⟨S8192x1024, .f32⟩ : BufTy).Contents (Elt Ideal))
    (x3 : (⟨S1024x2048, .f32⟩ : BufTy).Contents (Elt Ideal)) (x4 : (⟨S1024, .f32⟩ : BufTy).Contents (Elt Ideal))
    (x5 : (⟨S1024x2048, .f32⟩ : BufTy).Contents (Elt Ideal)) (x6 : (⟨S1024, .f32⟩ : BufTy).Contents (Elt Ideal))
    (x7 : (⟨S1024x2048, .f32⟩ : BufTy).Contents (Elt Ideal)) (x8 : (⟨S1024, .f32⟩ : BufTy).Contents (Elt Ideal))
    (x9 : (⟨S1024x2048, .f32⟩ : BufTy).Contents (Elt Ideal)) (x10 : (⟨S1024, .f32⟩ : BufTy).Contents (Elt Ideal))
    (r : Fin 8192) (j : Fin 4096) :
    val_main_v7 (F := Ideal) x0 x1 x3 x4 x5 x6 x7 x8 x9 x10 (ix2 r j)
      = gate x0 x1 (val_main_v1 (F := Ideal) x3 x5 x7 x9) (val_main_v2 (F := Ideal) x4 x6 x8 x10) r j := by
  rw [val_main_v7_apply, val_main_v4_apply, val_main_v6_apply, val_main_v5_apply, bidx_eq, sum_halves]
  unfold gate
  rw [Ideal.addf_def]
  congr 1
  congr 1
  · refine Finset.sum_congr rfl fun k _ => ?_
    rw [lidx_eq, input_colX, val_main_v3_apply, widx_eq]
  · refine Finset.sum_congr rfl fun k _ => ?_
    rw [lidx_eq, input_colH, val_main_v3_apply, widx_eq]

/-- Column n of the first slice of the stacked gates is gate column n. -/
theorem idx_v8_eq (r : Fin 8192) (n : Fin 1024) :
    idx_main_v8 (ix2 r n) = ix2 r (gcol 0 (by omega) n) :=
  funext fun a => Fin.ext (by
    match a with
    | ⟨0, _⟩ => rfl
    | ⟨1, _⟩ => show n.val = 0 + n.val; omega)

/-- Column n of the second slice of the stacked gates is gate column 1024 + n. -/
theorem idx_v9_eq (r : Fin 8192) (n : Fin 1024) :
    idx_main_v9 (ix2 r n) = ix2 r (gcol 1024 (by omega) n) :=
  funext fun a => Fin.ext (by
    match a with
    | ⟨0, _⟩ => rfl
    | ⟨1, _⟩ => rfl)

/-- Column n of the third slice of the stacked gates is gate column 2048 + n. -/
theorem idx_v10_eq (r : Fin 8192) (n : Fin 1024) :
    idx_main_v10 (ix2 r n) = ix2 r (gcol 2048 (by omega) n) :=
  funext fun a => Fin.ext (by
    match a with
    | ⟨0, _⟩ => rfl
    | ⟨1, _⟩ => rfl)

/-- Column n of the fourth slice of the stacked gates is gate column 3072 + n. -/
theorem idx_v11_eq (r : Fin 8192) (n : Fin 1024) :
    idx_main_v11 (ix2 r n) = ix2 r (gcol 3072 (by omega) n) :=
  funext fun a => Fin.ext (by
    match a with
    | ⟨0, _⟩ => rfl
    | ⟨1, _⟩ => rfl)

/-- The forget gate: one over one plus the exponential of the negated first slice is the logistic function of gate column n. -/
theorem forget_gate_apply (x0 x1 : (⟨S8192x1024, .f32⟩ : BufTy).Contents (Elt Ideal))
    (x3 : (⟨S1024x2048, .f32⟩ : BufTy).Contents (Elt Ideal)) (x4 : (⟨S1024, .f32⟩ : BufTy).Contents (Elt Ideal))
    (x5 : (⟨S1024x2048, .f32⟩ : BufTy).Contents (Elt Ideal)) (x6 : (⟨S1024, .f32⟩ : BufTy).Contents (Elt Ideal))
    (x7 : (⟨S1024x2048, .f32⟩ : BufTy).Contents (Elt Ideal)) (x8 : (⟨S1024, .f32⟩ : BufTy).Contents (Elt Ideal))
    (x9 : (⟨S1024x2048, .f32⟩ : BufTy).Contents (Elt Ideal)) (x10 : (⟨S1024, .f32⟩ : BufTy).Contents (Elt Ideal)) (r : Fin 8192) (n : Fin 1024) :
    val_main_v17 (F := Ideal) x0 x1 x3 x4 x5 x6 x7 x8 x9 x10 (ix2 r n)
      = Ideal.logistic (gate x0 x1 (val_main_v1 (F := Ideal) x3 x5 x7 x9) (val_main_v2 (F := Ideal) x4 x6 x8 x10) r (gcol 0 (by omega) n)) := by
  rw [val_main_v17_apply, val_main_v16_apply, val_main_cst_0_apply, val_main_v15_apply, val_main_v14_apply,
    val_main_cst_apply, val_main_v13_apply, val_main_v12_apply, val_main_v8_apply, idx_v8_eq, gates_apply]
  simp only [Ideal.hostDivf_def, Ideal.ofBits_def, ofBits_one_f32, Ideal.addf_def, Ideal.hostUnary_exp_def,
    Ideal.hostNegf_def, Ideal.negf_def]
  rfl

/-- The input gate: the same expansion over the second slice is the logistic function of gate column 1024 + n. -/
theorem input_gate_apply (x0 x1 : (⟨S8192x1024, .f32⟩ : BufTy).Contents (Elt Ideal))
    (x3 : (⟨S1024x2048, .f32⟩ : BufTy).Contents (Elt Ideal)) (x4 : (⟨S1024, .f32⟩ : BufTy).Contents (Elt Ideal))
    (x5 : (⟨S1024x2048, .f32⟩ : BufTy).Contents (Elt Ideal)) (x6 : (⟨S1024, .f32⟩ : BufTy).Contents (Elt Ideal))
    (x7 : (⟨S1024x2048, .f32⟩ : BufTy).Contents (Elt Ideal)) (x8 : (⟨S1024, .f32⟩ : BufTy).Contents (Elt Ideal))
    (x9 : (⟨S1024x2048, .f32⟩ : BufTy).Contents (Elt Ideal)) (x10 : (⟨S1024, .f32⟩ : BufTy).Contents (Elt Ideal)) (r : Fin 8192) (n : Fin 1024) :
    val_main_v23 (F := Ideal) x0 x1 x3 x4 x5 x6 x7 x8 x9 x10 (ix2 r n)
      = Ideal.logistic (gate x0 x1 (val_main_v1 (F := Ideal) x3 x5 x7 x9) (val_main_v2 (F := Ideal) x4 x6 x8 x10) r (gcol 1024 (by omega) n)) := by
  rw [val_main_v23_apply, val_main_v22_apply, val_main_cst_2_apply, val_main_v21_apply, val_main_v20_apply,
    val_main_cst_1_apply, val_main_v19_apply, val_main_v18_apply, val_main_v9_apply, idx_v9_eq, gates_apply]
  simp only [Ideal.hostDivf_def, Ideal.ofBits_def, ofBits_one_f32, Ideal.addf_def, Ideal.hostUnary_exp_def,
    Ideal.hostNegf_def, Ideal.negf_def]
  rfl

/-- The output gate: the same expansion over the fourth slice is the logistic function of gate column 3072 + n. -/
theorem output_gate_apply (x0 x1 : (⟨S8192x1024, .f32⟩ : BufTy).Contents (Elt Ideal))
    (x3 : (⟨S1024x2048, .f32⟩ : BufTy).Contents (Elt Ideal)) (x4 : (⟨S1024, .f32⟩ : BufTy).Contents (Elt Ideal))
    (x5 : (⟨S1024x2048, .f32⟩ : BufTy).Contents (Elt Ideal)) (x6 : (⟨S1024, .f32⟩ : BufTy).Contents (Elt Ideal))
    (x7 : (⟨S1024x2048, .f32⟩ : BufTy).Contents (Elt Ideal)) (x8 : (⟨S1024, .f32⟩ : BufTy).Contents (Elt Ideal))
    (x9 : (⟨S1024x2048, .f32⟩ : BufTy).Contents (Elt Ideal)) (x10 : (⟨S1024, .f32⟩ : BufTy).Contents (Elt Ideal)) (r : Fin 8192) (n : Fin 1024) :
    val_main_v33 (F := Ideal) x0 x1 x3 x4 x5 x6 x7 x8 x9 x10 (ix2 r n)
      = Ideal.logistic (gate x0 x1 (val_main_v1 (F := Ideal) x3 x5 x7 x9) (val_main_v2 (F := Ideal) x4 x6 x8 x10) r (gcol 3072 (by omega) n)) := by
  rw [val_main_v33_apply, val_main_v32_apply, val_main_cst_4_apply, val_main_v31_apply, val_main_v30_apply,
    val_main_cst_3_apply, val_main_v29_apply, val_main_v28_apply, val_main_v11_apply, idx_v11_eq, gates_apply]
  simp only [Ideal.hostDivf_def, Ideal.ofBits_def, ofBits_one_f32, Ideal.addf_def, Ideal.hostUnary_exp_def,
    Ideal.hostNegf_def, Ideal.negf_def]
  rfl

/-- The candidate: the hyperbolic tangent of the third slice, gate column 2048 + n. -/
theorem candidate_apply (x0 x1 : (⟨S8192x1024, .f32⟩ : BufTy).Contents (Elt Ideal))
    (x3 : (⟨S1024x2048, .f32⟩ : BufTy).Contents (Elt Ideal)) (x4 : (⟨S1024, .f32⟩ : BufTy).Contents (Elt Ideal))
    (x5 : (⟨S1024x2048, .f32⟩ : BufTy).Contents (Elt Ideal)) (x6 : (⟨S1024, .f32⟩ : BufTy).Contents (Elt Ideal))
    (x7 : (⟨S1024x2048, .f32⟩ : BufTy).Contents (Elt Ideal)) (x8 : (⟨S1024, .f32⟩ : BufTy).Contents (Elt Ideal))
    (x9 : (⟨S1024x2048, .f32⟩ : BufTy).Contents (Elt Ideal)) (x10 : (⟨S1024, .f32⟩ : BufTy).Contents (Elt Ideal)) (r : Fin 8192) (n : Fin 1024) :
    val_main_v24 (F := Ideal) x0 x1 x3 x4 x5 x6 x7 x8 x9 x10 (ix2 r n)
      = Ideal.tanh (gate x0 x1 (val_main_v1 (F := Ideal) x3 x5 x7 x9) (val_main_v2 (F := Ideal) x4 x6 x8 x10) r (gcol 2048 (by omega) n)) := by
  rw [val_main_v24_apply, val_main_v10_apply, idx_v10_eq, gates_apply, Ideal.hostUnary_tanh_def]

/-- The reference's second result (the new cell state), as a function of the arguments, is the specification's. -/
theorem cell_eq (x0 x1 x2 : (⟨S8192x1024, .f32⟩ : BufTy).Contents (Elt Ideal))
    (x3 : (⟨S1024x2048, .f32⟩ : BufTy).Contents (Elt Ideal)) (x4 : (⟨S1024, .f32⟩ : BufTy).Contents (Elt Ideal))
    (x5 : (⟨S1024x2048, .f32⟩ : BufTy).Contents (Elt Ideal)) (x6 : (⟨S1024, .f32⟩ : BufTy).Contents (Elt Ideal))
    (x7 : (⟨S1024x2048, .f32⟩ : BufTy).Contents (Elt Ideal)) (x8 : (⟨S1024, .f32⟩ : BufTy).Contents (Elt Ideal))
    (x9 : (⟨S1024x2048, .f32⟩ : BufTy).Contents (Elt Ideal)) (x10 : (⟨S1024, .f32⟩ : BufTy).Contents (Elt Ideal)) :
    val_main_v27 (F := Ideal) x0 x1 x2 x3 x4 x5 x6 x7 x8 x9 x10
      = cell x0 x1 x2 (val_main_v1 (F := Ideal) x3 x5 x7 x9) (val_main_v2 (F := Ideal) x4 x6 x8 x10) := by
  funext i
  obtain ⟨r, n, rfl⟩ : ∃ (r : Fin 8192) (n : Fin 1024), i = ix2 r n := ⟨i 0, i 1, eq_ix2 i⟩
  rw [val_main_v27_apply, val_main_v25_apply, val_main_v26_apply, forget_gate_apply, input_gate_apply, candidate_apply,
    Ideal.addf_def, Ideal.mulf_def, Ideal.mulf_def]
  rfl

/-- The reference's first result (the new hidden state), as a function of the arguments, is the specification's. -/
theorem hidden_eq (x0 x1 x2 : (⟨S8192x1024, .f32⟩ : BufTy).Contents (Elt Ideal))
    (x3 : (⟨S1024x2048, .f32⟩ : BufTy).Contents (Elt Ideal)) (x4 : (⟨S1024, .f32⟩ : BufTy).Contents (Elt Ideal))
    (x5 : (⟨S1024x2048, .f32⟩ : BufTy).Contents (Elt Ideal)) (x6 : (⟨S1024, .f32⟩ : BufTy).Contents (Elt Ideal))
    (x7 : (⟨S1024x2048, .f32⟩ : BufTy).Contents (Elt Ideal)) (x8 : (⟨S1024, .f32⟩ : BufTy).Contents (Elt Ideal))
    (x9 : (⟨S1024x2048, .f32⟩ : BufTy).Contents (Elt Ideal)) (x10 : (⟨S1024, .f32⟩ : BufTy).Contents (Elt Ideal)) :
    val_main_v35 (F := Ideal) x0 x1 x2 x3 x4 x5 x6 x7 x8 x9 x10
      = hidden x0 x1 x2 (val_main_v1 (F := Ideal) x3 x5 x7 x9) (val_main_v2 (F := Ideal) x4 x6 x8 x10) := by
  funext i
  obtain ⟨r, n, rfl⟩ : ∃ (r : Fin 8192) (n : Fin 1024), i = ix2 r n := ⟨i 0, i 1, eq_ix2 i⟩
  rw [val_main_v35_apply, val_main_v34_apply, output_gate_apply, cell_eq, Ideal.mulf_def, Ideal.hostUnary_tanh_def]
  rfl

end Cert.ReferenceIdeal.RefValue

end
-- ==== Proof.lean ====
/-
  An LSTM cell, batch 8192, input and hidden width 1024: the kernel against its reference over the extended reals.

  Both programs form the four gates' pre-activations from the row-wise stack W of the four gate weight matrices and
  the stack b of the four biases. The reference multiplies the joined input [x | h] by the transposed stack: one sum
  over 2048 products per gate entry. The kernel multiplies x by the transposed input half of the stack and h by the
  transposed recurrent half and adds the two: two sums over 1024 products. A sum over 2048 indices is the sum over its
  first 1024 plus the sum over its last 1024 in any commutative additive monoid, so the two pre-activations are one
  extended real whatever the entries are; nothing here needs the inputs to be finite. The kernel's conversion of the
  weights to a narrower float format is the identity over the extended reals. The sigmoid is, on both sides, one over one
  plus the exponential of the negated argument; the hyperbolic tangent, the products and the sum that make the new cell
  state and the new hidden state are the same operations in the same order.

  The kernel runs over a grid of 32 blocks of 256 batch rows; each result array after the run is the specification's
  function on every index because the 32 row blocks cover the 8192 rows. The three frame claims: the two kernel programs
  by the run of their one pipeline, the reference by its run with the results dropped. The idealization rewrote
  nothing, so there is nothing to preserve.
-/
import proofs.«118925_j77919296684536_1_alg».proof.Defs
import proofs.«118925_j77919296684536_1_alg».proof.Proof.Gen.Kernel
import proofs.«118925_j77919296684536_1_alg».proof.Proof.Gen.KernelIdeal
import proofs.«118925_j77919296684536_1_alg».proof.Proof.Gen.ReferenceIdeal
import proofs.«118925_j77919296684536_1_alg».proof.Proof.Gen.Pre_finite_inputs
import proofs.«118925_j77919296684536_1_alg».proof.Proof.Gen.ReferenceIdeal.Run
import proofs.«118925_j77919296684536_1_alg».proof.Proof.Gen.ReferenceIdeal.Read
import proofs.«118925_j77919296684536_1_alg».proof.Proof.KernelRun
import proofs.«118925_j77919296684536_1_alg».proof.Proof.KernelIdealRun
import proofs.«118925_j77919296684536_1_alg».proof.Proof.KernelValue
import proofs.«118925_j77919296684536_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs to the end and leaves its arguments unchanged. -/
theorem frame_kernel : Cert.frame_Kernel := fun m ρ _ => Cert.Kernel.Run.frame m ρ

/-- The idealized kernel runs to the end and leaves its arguments unchanged. -/
theorem frame_kernelIdeal : Cert.frame_KernelIdeal := fun m ρ _ => Cert.KernelIdeal.Run.frame m ρ

/-- The reference runs to the end and leaves its arguments unchanged: its run, the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- From memories agreeing on the arguments both programs end with the specification's hidden state and cell state of
    those arguments. -/
theorem algebraic : Cert.algebraic_KernelIdeal_ReferenceIdeal := by
  intro m ρ m' ρ' _ hagree
  refine ⟨fun c => Cert.KernelIdeal.KValue.hiddenOf m c, fun c => Cert.KernelIdeal.KValue.cellOf m c,
    Cert.KernelIdeal.KValue.run m ρ, ?_⟩
  refine (θ_run Cert.ReferenceIdeal.defs _ _).mono (fun _ h c => ?_) (Cert.ReferenceIdeal.Value.run (F := Ideal) m' ρ')
  obtain ⟨h0, h1, h2, h3, h4, h5, h6, h7, h8, h9, h10⟩ := hagree c
  refine ⟨?_, ?_, (h c).2.2⟩
  · refine (h c).1.trans ?_
    rw [Cert.ReferenceIdeal.Read.val_main_v35_eq, Cert.ReferenceIdeal.RefValue.hidden_eq, h0, h1, h2, h3, h4, h5, h6, h7, h8, h9, h10]
    rfl
  · refine ((h c).2.1.trans (Cert.ReferenceIdeal.Read.val_main_v27_eq (F := Ideal) _ _ _ _ _ _ _ _ _ _ _)).trans ?_
    rw [Cert.ReferenceIdeal.RefValue.cell_eq, h0, h1, h2, h3, h4, h5, h6, h7, h8, h9, h10]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
